-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x4096 : Shape := ⟨3, ![16, 256, 4096]⟩
abbrev S256x256x7 : Shape := ⟨3, ![256, 256, 7]⟩
abbrev S256 : Shape := ⟨1, ![256]⟩
abbrev S_ : Shape := ⟨0, ![]⟩

class Facts : Prop where
  bcast_S_S16x256x4096 : S_.BroadcastsInDim S16x256x4096 (![] : Fin 0 → Fin S16x256x4096.rank)
  reducesTo_S16x256x4096_S_d0_1_2 : S16x256x4096.ReducesTo [0, 1, 2] S_
  h_S_ : 0 < S_.numel
  bcast_S_S256x256x7 : S_.BroadcastsInDim S256x256x7 (![] : Fin 0 → Fin S256x256x7.rank)
  reducesTo_S256x256x7_S_d0_1_2 : S256x256x7.ReducesTo [0, 1, 2] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x256x4096 .f32) (main_arg1 : FVec F S256x256x7 .f32) (main_arg2 : FVec F S256 .f32) : IVec S_ 1 :=
  let main_v0 : FVec F S16x256x4096 .f32 := Host.absf main_arg0
  let main_cst : FVec F S_ .f32 := constant S_ .f32 0x7F800000#32
  let main_v1 : FVec F S16x256x4096 .f32 := broadcastInDim S16x256x4096 ![] bcast_S_S16x256x4096 main_cst
  let main_v2 : IVec S16x256x4096 1 := cmpf .olt main_v0 main_v1
  let main_c : IVec S_ 1 := constantI S_ 1 1#1
  let main_v3 : IVec S_ 1 := (fun x v => Host.reduce IntOp.andi x v reducesTo_S16x256x4096_S_d0_1_2 h_S_) main_v2 main_c
  let main_v4 : FVec F S256x256x7 .f32 := Host.absf main_arg1
  let main_cst_0 : FVec F S_ .f32 := constant S_ .f32 0x7F800000#32
  let main_v5 : FVec F S256x256x7 .f32 := broadcastInDim S256x256x7 ![] bcast_S_S256x256x7 main_cst_0
  let main_v6 : IVec S256x256x7 1 := cmpf .olt main_v4 main_v5
  let main_c_1 : IVec S_ 1 := constantI S_ 1 1#1
  let main_v7 : IVec S_ 1 := (fun x v => Host.reduce IntOp.andi x v reducesTo_S256x256x7_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x256x4096 : Shape := ⟨3, ![16, 256, 4096]⟩
abbrev S256x256x7 : Shape := ⟨3, ![256, 256, 7]⟩
abbrev S256 : Shape := ⟨1, ![256]⟩
abbrev S_ : Shape := ⟨0, ![]⟩
abbrev S16x256x4102 : Shape := ⟨3, ![16, 256, 4102]⟩
abbrev S4096 : Shape := ⟨1, ![4096]⟩
abbrev S4096x1 : Shape := ⟨2, ![4096, 1]⟩
abbrev S7 : Shape := ⟨1, ![7]⟩
abbrev S1x7 : Shape := ⟨2, ![1, 7]⟩
abbrev S4096x7 : Shape := ⟨2, ![4096, 7]⟩
abbrev S4096x7x1 : Shape := ⟨3, ![4096, 7, 1]⟩
abbrev S16x256x4096x7 : Shape := ⟨4, ![16, 256, 4096, 7]⟩
abbrev S65536x1792 : Shape := ⟨2, ![65536, 1792]⟩
abbrev S256x7x256 : Shape := ⟨3, ![256, 7, 256]⟩
abbrev S1792x256 : Shape := ⟨2, ![1792, 256]⟩
abbrev S65536x256 : Shape := ⟨2, ![65536, 256]⟩
abbrev S2048x1792 : Shape := ⟨2, ![2048, 1792]⟩
abbrev S2048x256 : Shape := ⟨2, ![2048, 256]⟩
abbrev S1x256 : Shape := ⟨2, ![1, 256]⟩

abbrev nBuf : Space → Nat
  | .hbm => 32
  | .vmem => 6
  | .smem => 0
  | _ => 0

abbrev bufTy : (tb : Table) → Fin (tcTables nBuf tb) → BufTy
  | .hbm, ⟨0, _⟩ => ⟨S16x256x4096, .f32⟩
  | .hbm, ⟨1, _⟩ => ⟨S256x256x7, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S16x256x4102, .f32⟩
  | .hbm, ⟨6, _⟩ => ⟨S4096, .i32⟩
  | .hbm, ⟨7, _⟩ => ⟨S4096x1, .i32⟩
  | .hbm, ⟨8, _⟩ => ⟨S_, .i32⟩
  | .hbm, ⟨9, _⟩ => ⟨S4096x1, .i32⟩
  | .hbm, ⟨10, _⟩ => ⟨S4096x1, .i32⟩
  | .hbm, ⟨11, _⟩ => ⟨S7, .i32⟩
  | .hbm, ⟨12, _⟩ => ⟨S1x7, .i32⟩
  | .hbm, ⟨13, _⟩ => ⟨S4096x7, .i32⟩
  | .hbm, ⟨14, _⟩ => ⟨S4096x7, .i32⟩
  | .hbm, ⟨15, _⟩ => ⟨S4096x7, .i32⟩
  | .hbm, ⟨16, _⟩ => ⟨S_, .i32⟩
  | .hbm, ⟨17, _⟩ => ⟨S4096x7, .i32⟩
  | .hbm, ⟨18, _⟩ => ⟨S4096x7, .i1⟩
  | .hbm, ⟨19, _⟩ => ⟨S_, .i32⟩
  | .hbm, ⟨20, _⟩ => ⟨S4096x7, .i32⟩
  | .hbm, ⟨21, _⟩ => ⟨S4096x7, .i32⟩
  | .hbm, ⟨22, _⟩ => ⟨S4096x7, .i32⟩
  | .hbm, ⟨23, _⟩ => ⟨S4096x7x1, .i32⟩
  | .hbm, ⟨24, _⟩ => ⟨S16x256x4096x7, .f32⟩
  | .hbm, ⟨25, _⟩ => ⟨S65536x1792, .f32⟩
  | .hbm, ⟨26, _⟩ => ⟨S65536x1792, .bf16⟩
  | .hbm, ⟨27, _⟩ => ⟨S256x7x256, .f32⟩
  | .hbm, ⟨28, _⟩ => ⟨S1792x256, .f32⟩
  | .hbm, ⟨29, _⟩ => ⟨S1792x256, .bf16⟩
  | .hbm, ⟨30, _⟩ => ⟨S65536x256, .f32⟩
  | .hbm, ⟨31, _⟩ => ⟨S16x256x4096, .f32⟩
  | .local _ .vmem, ⟨0, _⟩ => ⟨S2048x1792, .bf16⟩
  | .local _ .vmem, ⟨1, _⟩ => ⟨S2048x1792, .bf16⟩
  | .local _ .vmem, ⟨2, _⟩ => ⟨S1792x256, .bf16⟩
  | .local _ .vmem, ⟨3, _⟩ => ⟨S256, .f32⟩
  | .local _ .vmem, ⟨4, _⟩ => ⟨S2048x256, .f32⟩
  | .local _ .vmem, ⟨5, _⟩ => ⟨S2048x256, .f32⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S16x256x4096_S16x256x4102_000_000_330 : S16x256x4096.Pads (![0, 0, 3] : Fin 3 → Nat) ![0, 0, 3] ![0, 0, 0] S16x256x4102
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S7_S1x7_1 : S7.BroadcastsInDim S1x7 (![1] : Fin 1 → Fin S1x7.rank)
  bcast_S4096x1_S4096x7_0_1 : S4096x1.BroadcastsInDim S4096x7 (![0, 1] : Fin 2 → Fin S4096x7.rank)
  bcast_S1x7_S4096x7_0_1 : S1x7.BroadcastsInDim S4096x7 (![0, 1] : Fin 2 → Fin S4096x7.rank)
  bcast_S_S4096x7 : S_.BroadcastsInDim S4096x7 (![] : Fin 0 → Fin S4096x7.rank)
  bcast_S4096x7_S4096x7x1_0_1 : S4096x7.BroadcastsInDim S4096x7x1 (![0, 1] : Fin 2 → Fin S4096x7x1.rank)
  shapeCasts_S16x256x4096x7_S65536x1792 : S16x256x4096x7.ShapeCasts S65536x1792
  bitsLt_bf16_f32 : FTy.bits .bf16 < FTy.bits .f32
  transposes_S256x256x7_S256x7x256_1_2_0 : S256x256x7.Transposes [1, 2, 0] S256x7x256
  shapeCasts_S256x7x256_S1792x256 : S256x7x256.ShapeCasts S1792x256
  inb_S2048x1792_S2048x1792_0_0 : ∀ a, (![0, 0] : Fin 2 → Nat) a + S2048x1792.size a ≤ S2048x1792.size a
  h_S2048x1792 : 0 < S2048x1792.numel
  shapeCasts_S2048x1792_S2048x1792 : S2048x1792.ShapeCasts S2048x1792
  inb_S1792x256_S1792x256_0_0 : ∀ a, (![0, 0] : Fin 2 → Nat) a + S1792x256.size a ≤ S1792x256.size a
  h_S1792x256 : 0 < S1792x256.numel
  shapeCasts_S1792x256_S1792x256 : S1792x256.ShapeCasts S1792x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S65536x256_S16x256x4096 : S65536x256.ShapeCasts S16x256x4096
  gather_S16x256x4102_S4096x7x1_S16x256x4096x7_01_2_n_n_2_2_162561_wf : GatherDims.WF S16x256x4102 S4096x7x1 S16x256x4096x7 [0, 1] [2] [] [2] [] 2 ![16, 256, 1]
  dot_S2048x1792_S1792x256_S2048x256_1_0_0_1_n_n_wf : DotDims.WF S2048x1792 S1792x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1792.size a ≤ S65536x1792.size a
  hwx0_0 : ∀ i : grid0.Coords, EltTy.bits .bf16 = 32 ∨ (Rect.block (s := S65536x1792) S2048x1792.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1792x256.size a ≤ S1792x256.size a
  hwx0_1 : ∀ i : grid0.Coords, EltTy.bits .bf16 = 32 ∨ (Rect.block (s := S1792x256) S1792x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)

variable [Facts₀]

def gather_S16x256x4102_S4096x7x1_S16x256x4096x7_01_2_n_n_2_2_162561 : GatherDims S16x256x4102 S4096x7x1 S16x256x4096x7 where
  offsetDims := [0, 1]
  collapsedSliceDims := [2]
  operandBatchingDims := []
  startIndicesBatchingDims := []
  startIndexMap := [2]
  indexVectorDim := 2
  sliceSizes := ![16, 256, 1]
  wf := gather_S16x256x4102_S4096x7x1_S16x256x4096x7_01_2_n_n_2_2_162561_wf
def dot_S2048x1792_S1792x256_S2048x256_1_0_0_1_n_n : DotDims S2048x1792 S1792x256 S2048x256 where
  lhsContracting := [1]
  rhsContracting := [0]
  lhsNonContracting := [0]
  rhsNonContracting := [1]
  lhsBatch := []
  rhsBatch := []
  wf := dot_S2048x1792_S1792x256_S2048x256_1_0_0_1_n_n_wf

abbrev win0_0 : Pipeline.Window sig grid0 :=
  Pipeline.Window.ofSpec (Memref.whole main_v18) S2048x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1792x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x256x4096 : Shape := ⟨3, ![16, 256, 4096]⟩
abbrev S256x256x7 : Shape := ⟨3, ![256, 256, 7]⟩
abbrev S256 : Shape := ⟨1, ![256]⟩
abbrev S_ : Shape := ⟨0, ![]⟩
abbrev S16x256x4102 : Shape := ⟨3, ![16, 256, 4102]⟩
abbrev S4096 : Shape := ⟨1, ![4096]⟩
abbrev S4096x1 : Shape := ⟨2, ![4096, 1]⟩
abbrev S7 : Shape := ⟨1, ![7]⟩
abbrev S1x7 : Shape := ⟨2, ![1, 7]⟩
abbrev S4096x7 : Shape := ⟨2, ![4096, 7]⟩
abbrev S4096x7x1 : Shape := ⟨3, ![4096, 7, 1]⟩
abbrev S16x256x4096x7 : Shape := ⟨4, ![16, 256, 4096, 7]⟩
abbrev S65536x1792 : Shape := ⟨2, ![65536, 1792]⟩
abbrev S256x7x256 : Shape := ⟨3, ![256, 7, 256]⟩
abbrev S1792x256 : Shape := ⟨2, ![1792, 256]⟩
abbrev S65536x256 : Shape := ⟨2, ![65536, 256]⟩
abbrev S1x256 : Shape := ⟨2, ![1, 256]⟩

abbrev nBuf : Space → Nat
  | .hbm => 33
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S256x256x7, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S16x256x4102, .f32⟩
  | .hbm, ⟨6, _⟩ => ⟨S4096, .i32⟩
  | .hbm, ⟨7, _⟩ => ⟨S4096x1, .i32⟩
  | .hbm, ⟨8, _⟩ => ⟨S_, .i32⟩
  | .hbm, ⟨9, _⟩ => ⟨S4096x1, .i32⟩
  | .hbm, ⟨10, _⟩ => ⟨S4096x1, .i32⟩
  | .hbm, ⟨11, _⟩ => ⟨S7, .i32⟩
  | .hbm, ⟨12, _⟩ => ⟨S1x7, .i32⟩
  | .hbm, ⟨13, _⟩ => ⟨S4096x7, .i32⟩
  | .hbm, ⟨14, _⟩ => ⟨S4096x7, .i32⟩
  | .hbm, ⟨15, _⟩ => ⟨S4096x7, .i32⟩
  | .hbm, ⟨16, _⟩ => ⟨S_, .i32⟩
  | .hbm, ⟨17, _⟩ => ⟨S4096x7, .i32⟩
  | .hbm, ⟨18, _⟩ => ⟨S4096x7, .i1⟩
  | .hbm, ⟨19, _⟩ => ⟨S_, .i32⟩
  | .hbm, ⟨20, _⟩ => ⟨S4096x7, .i32⟩
  | .hbm, ⟨21, _⟩ => ⟨S4096x7, .i32⟩
  | .hbm, ⟨22, _⟩ => ⟨S4096x7, .i32⟩
  | .hbm, ⟨23, _⟩ => ⟨S4096x7x1, .i32⟩
  | .hbm, ⟨24, _⟩ => ⟨S16x256x4096x7, .f32⟩
  | .hbm, ⟨25, _⟩ => ⟨S65536x1792, .f32⟩
  | .hbm, ⟨26, _⟩ => ⟨S256x7x256, .f32⟩
  | .hbm, ⟨27, _⟩ => ⟨S1792x256, .f32⟩
  | .hbm, ⟨28, _⟩ => ⟨S65536x256, .f32⟩
  | .hbm, ⟨29, _⟩ => ⟨S1x256, .f32⟩
  | .hbm, ⟨30, _⟩ => ⟨S65536x256, .f32⟩
  | .hbm, ⟨31, _⟩ => ⟨S65536x256, .f32⟩
  | .hbm, ⟨32, _⟩ => ⟨S16x256x4096, .f32⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  pads_S16x256x4096_S16x256x4102_000_000_330 : S16x256x4096.Pads (![0, 0, 3] : Fin 3 → Nat) ![0, 0, 3] ![0, 0, 0] S16x256x4102
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S7_S1x7_1 : S7.BroadcastsInDim S1x7 (![1] : Fin 1 → Fin S1x7.rank)
  bcast_S4096x1_S4096x7_0_1 : S4096x1.BroadcastsInDim S4096x7 (![0, 1] : Fin 2 → Fin S4096x7.rank)
  bcast_S1x7_S4096x7_0_1 : S1x7.BroadcastsInDim S4096x7 (![0, 1] : Fin 2 → Fin S4096x7.rank)
  bcast_S_S4096x7 : S_.BroadcastsInDim S4096x7 (![] : Fin 0 → Fin S4096x7.rank)
  bcast_S4096x7_S4096x7x1_0_1 : S4096x7.BroadcastsInDim S4096x7x1 (![0, 1] : Fin 2 → Fin S4096x7x1.rank)
  shapeCasts_S16x256x4096x7_S65536x1792 : S16x256x4096x7.ShapeCasts S65536x1792
  transposes_S256x256x7_S256x7x256_1_2_0 : S256x256x7.Transposes [1, 2, 0] S256x7x256
  shapeCasts_S256x7x256_S1792x256 : S256x7x256.ShapeCasts S1792x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  shapeCasts_S65536x256_S16x256x4096 : S65536x256.ShapeCasts S16x256x4096
  gather_S16x256x4102_S4096x7x1_S16x256x4096x7_01_2_n_n_2_2_162561_wf : GatherDims.WF S16x256x4102 S4096x7x1 S16x256x4096x7 [0, 1] [2] [] [2] [] 2 ![16, 256, 1]
  dot_S65536x1792_S1792x256_S65536x256_1_0_0_1_n_n_wf : DotDims.WF S65536x1792 S1792x256 S65536x256 [1] [0] [0] [1] [] []

variable [Facts₀]

def gather_S16x256x4102_S4096x7x1_S16x256x4096x7_01_2_n_n_2_2_162561 : GatherDims S16x256x4102 S4096x7x1 S16x256x4096x7 where
  offsetDims := [0, 1]
  collapsedSliceDims := [2]
  operandBatchingDims := []
  startIndicesBatchingDims := []
  startIndexMap := [2]
  indexVectorDim := 2
  sliceSizes := ![16, 256, 1]
  wf := gather_S16x256x4102_S4096x7x1_S16x256x4096x7_01_2_n_n_2_2_162561_wf
def dot_S65536x1792_S1792x256_S65536x256_1_0_0_1_n_n : DotDims S65536x1792 S1792x256 S65536x256 where
  lhsContracting := [1]
  rhsContracting := [0]
  lhsNonContracting := [0]
  rhsNonContracting := [1]
  lhsBatch := []
  rhsBatch := []
  wf := dot_S65536x1792_S1792x256_S65536x256_1_0_0_1_n_n_wf

class Facts : Prop extends Facts₀ where

variable [Facts]
-- ==== Proof.BlockProduct.lean ====
/-
  One grid point's arithmetic, on the extended reals. The body takes a 2048 x 1792 block `a` of the patch matrix, the
  whole 1792 x 256 weight matrix `w` and the bias row, multiplies the two into a zero accumulator and adds the bias
  row to every row of the product. At row `p` and column `q` the result is

      (sum over k < 1792 of a[p, k] * w[k, q]) + bias[q].

  The two self shape casts are the identity, the zero accumulator is the neutral element of the sum, the contraction
  has one axis (so its index is one number `k`), and the bias, cast to one row and broadcast over 2048 rows, is read at
  its column.
-/
import proofs.«120205_j82085414961669_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockProduct

open Idealize.ShloMosaic Idealize.ShloMosaic.ValueIdx Cert.KernelIdeal Cert.KernelIdeal.Gen

/-- The left operand's row coordinate is the output's row. -/
theorem lhs_axis0 (i : S2048x256.Idx) (q : dot_S2048x1792_S1792x256_S2048x256_1_0_0_1_n_n.contr.Idx) :
    (dot_S2048x1792_S1792x256_S2048x256_1_0_0_1_n_n.lhsIdx i q 0).val = (i 0).val := by
  unfold DotDims.lhsIdx
  rw [dif_neg (show ¬(0 : Fin S2048x1792.rank) ∈ dot_S2048x1792_S1792x256_S2048x256_1_0_0_1_n_n.lhsBatch by decide), dif_pos (show (0 : Fin S2048x1792.rank) ∈ dot_S2048x1792_S1792x256_S2048x256_1_0_0_1_n_n.lhsNonContracting by decide)]
  rfl
/-- The left operand's column coordinate is the contraction's one coordinate. -/
theorem lhs_axis1 (i : S2048x256.Idx) (q : dot_S2048x1792_S1792x256_S2048x256_1_0_0_1_n_n.contr.Idx) :
    (dot_S2048x1792_S1792x256_S2048x256_1_0_0_1_n_n.lhsIdx i q 1).val = (q ⟨0, by decide⟩).val :=
  dot_S2048x1792_S1792x256_S2048x256_1_0_0_1_n_n.lhsIdx_val_of_single rfl i q
/-- The right operand's row coordinate is the contraction's one coordinate. -/
theorem rhs_axis0 (i : S2048x256.Idx) (q : dot_S2048x1792_S1792x256_S2048x256_1_0_0_1_n_n.contr.Idx) :
    (dot_S2048x1792_S1792x256_S2048x256_1_0_0_1_n_n.rhsIdx i q 0).val = (q ⟨0, by decide⟩).val :=
  dot_S2048x1792_S1792x256_S2048x256_1_0_0_1_n_n.rhsIdx_val_of_single rfl i q
/-- The right operand's column coordinate is the output's column. -/
theorem rhs_axis1 (i : S2048x256.Idx) (q : dot_S2048x1792_S1792x256_S2048x256_1_0_0_1_n_n.contr.Idx) :
    (dot_S2048x1792_S1792x256_S2048x256_1_0_0_1_n_n.rhsIdx i q 1).val = (i 1).val := by
  unfold DotDims.rhsIdx
  rw [dif_neg (show ¬(1 : Fin S1792x256.rank) ∈ dot_S2048x1792_S1792x256_S2048x256_1_0_0_1_n_n.rhsBatch by decide), dif_pos (show (1 : Fin S1792x256.rank) ∈ dot_S2048x1792_S1792x256_S2048x256_1_0_0_1_n_n.rhsNonContracting by decide)]
  rfl

/-- The product into the zero accumulator, at row `p` and column `q`: the sum over the shared axis. -/
theorem product_apply (a : FVec Ideal S2048x1792 .bf16) (w : FVec Ideal S1792x256 .bf16) (p : Fin 2048) (q : Fin 256) :
    matmul dot_S2048x1792_S1792x256_S2048x256_1_0_0_1_n_n none a w (constant S2048x256 .f32 0x00000000#32) (ix2 p q)
      = ∑ k : Fin 1792, (a (ix2 p k) : EReal) * (w (ix2 k q) : EReal) := by
  refine (Ideal.matmul_constant_zero_apply dot_S2048x1792_S1792x256_S2048x256_1_0_0_1_n_n none a w (ix2 p q)).trans ?_
  rw [← Equiv.sum_comp (ValueIdx.contrEquiv1 dot_S2048x1792_S1792x256_S2048x256_1_0_0_1_n_n 1792 rfl rfl).symm]
  refine Finset.sum_congr rfl fun k _ => ?_
  have hk := ValueIdx.contrEquiv1_symm_val dot_S2048x1792_S1792x256_S2048x256_1_0_0_1_n_n 1792 rfl rfl k
  have el : dot_S2048x1792_S1792x256_S2048x256_1_0_0_1_n_n.lhsIdx (ix2 p q) ((ValueIdx.contrEquiv1 dot_S2048x1792_S1792x256_S2048x256_1_0_0_1_n_n 1792 rfl rfl).symm k) = ix2 p k := funext fun ax => Fin.ext (by
    match ax with
    | ⟨0, _⟩ => exact lhs_axis0 _ _
    | ⟨1, _⟩ => exact (lhs_axis1 _ _).trans hk)
  have er : dot_S2048x1792_S1792x256_S2048x256_1_0_0_1_n_n.rhsIdx (ix2 p q) ((ValueIdx.contrEquiv1 dot_S2048x1792_S1792x256_S2048x256_1_0_0_1_n_n 1792 rfl rfl).symm k) = ix2 k q := funext fun ax => Fin.ext (by
    match ax with
    | ⟨0, _⟩ => exact (rhs_axis0 _ _).trans hk
    | ⟨1, _⟩ => exact rhs_axis1 _ _)
  rw [el, er]

/-- The bias, as one row broadcast over the block's rows, at row `p` and column `q`: the bias at `q`. -/
theorem bias_apply (b : FVec Ideal S256 .f32) (p : Fin 2048) (q : Fin 256) :
    broadcastTo S2048x256 (shapeCast S1x256 b shapeCasts_S256_S1x256) broadcasts_S1x256_S2048x256 (ix2 p q) = b (ix1 q) :=
  (broadcastTo_1b_ab_apply _ broadcasts_S1x256_S2048x256 p q).trans (shapeCast_a_1a_apply b shapeCasts_S256_S1x256 0 q)

/-- What the body stores, at row `p` and column `q` of its block. -/
theorem payload_apply (a : FVec Ideal S2048x1792 .bf16) (w : FVec Ideal S1792x256 .bf16) (b : FVec Ideal S256 .f32) (p : Fin 2048) (q : Fin 256) :
    k0_pay1 (F := Ideal) a w b (ix2 p q) = (∑ k : Fin 1792, (a (ix2 p k) : EReal) * (w (ix2 k q) : EReal)) + b (ix1 q) := by
  unfold k0_pay1
  refine (addf_apply _ _ (ix2 p q)).trans ?_
  refine congrArg₂ (· + ·) ?_ (bias_apply b p q)
  rw [shapeCast_self, shapeCast_self]
  exact product_apply a w p q

end Cert.KernelIdeal.BlockProduct

end
-- ==== Proof.GemmBias.lean ====
/-
  The function both programs compute before their last reshape: a 65536 x 1792 matrix `A` (the patch rows) times a
  1792 x 256 matrix `B` (the weights), plus a bias `b` added to every row:

      G A B b [r, n] = (sum over k < 1792 of A[r, k] * B[k, n]) + b[n]

  on the extended reals. Nothing here depends on a program: the shapes are literal.
-/
import Idealize.ShloMosaic.PureOps.Ideal
import Idealize.ShloMosaic.Lib.ValueIdx

noncomputable section

namespace Cert.GemmBias

open Idealize.ShloMosaic Idealize.ShloMosaic.ValueIdx

/-- The entry at row `r`, column `n`. -/
def entry (A : (⟨2, ![65536, 1792]⟩ : Shape).Idx → EReal) (B : (⟨2, ![1792, 256]⟩ : Shape).Idx → EReal)
    (b : (⟨1, ![256]⟩ : Shape).Idx → EReal) (r : Fin 65536) (n : Fin 256) : EReal :=
  (∑ k : Fin 1792, A (ix2 r k) * B (ix2 k n)) + b (ix1 n)

/-- The whole 65536 x 256 array. -/
def G (A : (⟨2, ![65536, 1792]⟩ : Shape).Idx → EReal) (B : (⟨2, ![1792, 256]⟩ : Shape).Idx → EReal)
    (b : (⟨1, ![256]⟩ : Shape).Idx → EReal) : (⟨2, ![65536, 256]⟩ : Shape).Idx → EReal :=
  fun i => entry A B b (i 0) (i 1)

theorem G_apply (A : (⟨2, ![65536, 1792]⟩ : Shape).Idx → EReal) (B : (⟨2, ![1792, 256]⟩ : Shape).Idx → EReal)
    (b : (⟨1, ![256]⟩ : Shape).Idx → EReal) (r : Fin 65536) (n : Fin 256) : G A B b (ix2 r n) = entry A B b r n := rfl

end Cert.GemmBias

end
-- ==== Proof.ArrayValue.lean ====
/-
  From the blocks to the array. The grid has 32 points; point `t` reads rows 2048 t .. 2048 t + 2047 of the patch
  matrix, the whole weight matrix and the whole bias, and writes rows 2048 t .. 2048 t + 2047 of the output. Row
  `2048 t + p` of the output is therefore `G` of the three arrays at that row, whatever `t`: what a point writes back is a
  block of ONE function of the arrays. The 32 blocks tile the 65536 rows (the block that holds row `r` is `r / 2048`), so
  the output array after the run is `G` of the arrays the region found.
-/
import proofs.«120205_j82085414961669_1_alg».proof.Proof.Gen.KernelIdeal.Frame
import proofs.«120205_j82085414961669_1_alg».proof.Proof.BlockProduct
import proofs.«120205_j82085414961669_1_alg».proof.Proof.GemmBias

set_option maxRecDepth 16384

noncomputable section

namespace Cert.KernelIdeal.ArrayValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GemmBias

variable (m : (ℓ : Loc nD τ sig) → Buf (Elt Ideal) ℓ)

/-- The patch matrix as the region finds it. -/
abbrev patches (c : Dev nD) : FVec Ideal S65536x1792 .bf16 := V m c main_v18
/-- The weight matrix as the region finds it. -/
abbrev weights (c : Dev nD) : FVec Ideal S1792x256 .bf16 := V m c main_v21
/-- The bias as the region finds it. -/
abbrev biasRow (c : Dev nD) : FVec Ideal S256 .f32 := V m c main_arg2

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the patch window moves with the output window along the rows, point `t`
    being block `t`; the weight and bias windows stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- WHAT POINT `t` WRITES BACK is block `t` of `G` of the arrays as the region finds them. -/
theorem flushed_eq (c : Dev nD) (t : Fin cfg0.N) :
    (dats m 0 c).flushed 3 t = ((cfg0.win 3).blk t).view.read (Elt Ideal) (G (patches m c) (weights m c) (biasRow m c)) := by
  show (cfg0.win 3).cut (grid0.coords t) ((dats m 0 c).after 3 t) = _
  rw [after0_3]
  unfold out0_3
  rw [View.canon_unit_zero hz2]
  simp only [View.ld_unit_zero (S := S2048x1792) hz2, View.ld_unit_zero (S := S1792x256) hz2, View.ld_unit_zero (S := S256) hz1]
  funext j
  obtain ⟨p, q, rfl⟩ : ∃ (p : Fin 2048) (q : Fin 256), j = ix2 p q := ⟨j 0, j 1, eq_ix2 j⟩
  obtain ⟨e00, e01, e10, e11, e20, e30, e31⟩ := idx_facts t
  have ht : t.val < 32 := lt_of_lt_of_eq t.isLt N_0
  have hp : p.val < 2048 := p.isLt
  show k0_pay1 (F := Ideal) (iblk m c 0 t) (iblk m c 1 t) (iblk m c 2 t) (ix2 p q)
    = G (patches m c) (weights m c) (biasRow m c) (((cfg0.win 3).blk t).view.emb (ix2 p q))
  -- the output block's element (p, q) sits at row 2048 t + p, column q of the array
  have hout : ((cfg0.win 3).blk t).view.emb (ix2 p q) = ix2 (⟨t.val * 2048 + p.val, by omega⟩ : Fin 65536) q := by
    funext a; apply Fin.ext
    match a with
    | ⟨0, _⟩ => show win0_3.index t (0 : Fin 2) * 2048 + 1 * p.val = t.val * 2048 + p.val; omega
    | ⟨1, _⟩ => show win0_3.index t (1 : Fin 2) * 256 + 1 * q.val = q.val; omega
  rw [hout, G_apply]
  refine (BlockProduct.payload_apply (iblk m c 0 t) (iblk m c 1 t) (iblk m c 2 t) p q).trans ?_
  unfold entry
  refine congrArg₂ (· + ·) (Finset.sum_congr rfl fun k _ => congrArg₂ (· * ·) ?_ ?_) ?_
  · -- the patch block's element (p, k) is the patch matrix at row 2048 t + p, column k
    show V m c main_v18 (((cfg0.win 0).blk t).view.emb (ix2 p k)) = V m c main_v18 (ix2 (⟨t.val * 2048 + p.val, by omega⟩ : Fin 65536) k)
    refine congrArg (V m c main_v18) (funext fun a => Fin.ext ?_)
    match a with
    | ⟨0, _⟩ => show win0_0.index t (0 : Fin 2) * 2048 + 1 * p.val = t.val * 2048 + p.val; omega
    | ⟨1, _⟩ => show win0_0.index t (1 : Fin 2) * 1792 + 1 * k.val = k.val; omega
  · -- the weight block is the whole weight matrix
    show V m c main_v21 (((cfg0.win 1).blk t).view.emb (ix2 k q)) = V m c main_v21 (ix2 k q)
    refine congrArg (V m c main_v21) (funext fun a => Fin.ext ?_)
    match a with
    | ⟨0, _⟩ => show win0_1.index t (0 : Fin 2) * 1792 + 1 * k.val = k.val; omega
    | ⟨1, _⟩ => show win0_1.index t (1 : Fin 2) * 256 + 1 * q.val = q.val; omega
  · -- the bias block is the whole bias
    show V m c main_arg2 (((cfg0.win 2).blk t).view.emb (ix1 q)) = V m c main_arg2 (ix1 q)
    refine congrArg (V m c main_arg2) (funext fun a => Fin.ext ?_)
    match a with
    | ⟨0, _⟩ => show win0_2.index t (0 : Fin 1) * 256 + 1 * q.val = q.val; omega

/-- An index of the output array is in point `t`'s block iff each coordinate is in the block's range on its axis. -/
theorem mem_blk (t : Fin cfg0.N) (i : S65536x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v22).slice (win0_3.rect t)).set ↔ _
  rw [View.set_slice_whole, Rect.mem_set_unit]
  exact Iff.rfl

/-- Every index of the output array is in some point's block: row `r` is in block `r / 2048`. -/
theorem cover (i : S65536x256.Idx) : ∃ t : Fin cfg0.N, (cfg0.win 3).flush t = true ∧ i ∈ ((cfg0.win 3).blk t).view.set := by
  have hi0 : (i 0).val < 65536 := (i 0).isLt
  have hi1 : (i 1).val < 256 := (i 1).isLt
  have hN : cfg0.N = 32 := N_0
  let t : Fin cfg0.N := ⟨(i 0).val / 2048, by rw [hN]; omega⟩
  have htv : t.val = (i 0).val / 2048 := rfl
  obtain ⟨e00, e01, e10, e11, e20, e30, e31⟩ := idx_facts t
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- THE OUTPUT ARRAY after the run is `G` of the arrays the region found. -/
theorem final (c : Dev nD) : (dats m 0 c).arrAt 3 cfg0.N = G (patches m c) (weights m c) (biasRow m c) :=
  (dats m 0 c).arrAt_eq_of_cover 3 (G (patches m c) (weights m c) (biasRow m c)) (fun t _ => flushed_eq m c t) cover

end Cert.KernelIdeal.ArrayValue

end
-- ==== Proof.KernelRun.lean ====
/-
  The kernel's program around its one region, read as values on the extended reals.

  Before the region the program pads the input along its last axis, gathers the seven-wide windows, lays them out as
  65536 rows of 1792 and narrows them to bf16; it transposes the kernel tensor, lays it out as 1792 rows of 256 and
  narrows it too. On the extended reals a change of float format is the identity, and the operations before it are,
  one for one, the reference's: so the patch matrix the region finds is the reference's patch stage of the input, and
  the weight matrix the reference's weight stage of the kernel tensor. Both are carried as whole arrays, never opened.

  After the region the program reshapes the region's 65536 x 256 output to 16 x 256 x 4096. The region's output is `G`
  of the three arrays it found, so the program's result is that reshape of `G` of the reference's two stages and the bias.
-/
import proofs.«120205_j82085414961669_1_alg».proof.Proof.ArrayValue
import proofs.«120205_j82085414961669_1_alg».proof.Proof.Gen.ReferenceIdeal.Read
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.GemmBias Cert.KernelIdeal.ArrayValue

variable (m : (ℓ : Loc nD τ sig) → Buf (Elt Ideal) ℓ) (ρ : Dev nD → PrngReg)

set_option maxHeartbeats 2000000 in
/-- The patch matrix the region finds is the reference's patch stage of the input. -/
theorem patchArray_eq (c : Dev nD) :
    (V m c main_v18 : S65536x1792.Idx → EReal) = Cert.ReferenceIdeal.Read.val_main_v17 (F := Ideal) (m ((c : Thread nD τ).loc main_arg0)) := by
  unfold V V0
  simp only [hostOps0, hostOps0_1, hostOps0_2, List.flatten_cons, List.flatten_nil, List.append_nil, List.cons_append, List.nil_append]
  after_results
  rfl

set_option maxHeartbeats 2000000 in
/-- The weight matrix the region finds is the reference's weight stage of the kernel tensor. -/
theorem weightArray_eq (c : Dev nD) :
    (V m c main_v21 : S1792x256.Idx → EReal) = Cert.ReferenceIdeal.Read.val_main_v19 (F := Ideal) (m ((c : Thread nD τ).loc main_arg1)) := by
  unfold V V0
  simp only [hostOps0, hostOps0_1, hostOps0_2, List.flatten_cons, List.flatten_nil, List.append_nil, List.cons_append, List.nil_append]
  after_results
  rfl

/-- The same three facts over the names the array's value is stated with. -/
theorem patches_eq (c : Dev nD) : patches m c = Cert.ReferenceIdeal.Read.val_main_v17 (F := Ideal) (m ((c : Thread nD τ).loc main_arg0)) :=
  patchArray_eq m c
theorem weights_eq (c : Dev nD) : weights m c = Cert.ReferenceIdeal.Read.val_main_v19 (F := Ideal) (m ((c : Thread nD τ).loc main_arg1)) :=
  weightArray_eq m c
theorem biasRow_eq (c : Dev nD) : biasRow m c = m ((c : Thread nD τ).loc main_arg2) := V_main_arg2 m c

/-- The program's result after the line that follows the region: the reshape of the region's output array. -/
theorem tail_eq (c : Dev nD) :
    Pipeline.afterTail₀ cfgs (dats m) 0 (V0 m) [hostOps1] c main_v23
      = shapeCast S16x256x4096 ((dats m 0 c).arrAt 3 cfg0.N) shapeCasts_S65536x256_S16x256x4096 := by
  unfold Pipeline.afterTail₀
  show StableHlo.after hostOps1 _ (Proc.devRef .tc main_v23) = _
  after_results
  have hw := Pipeline.withArrays_arr spec0 launch0.win.arr_inj c (V0 m c) (fun w => (dats m 0 c).arrAt w (cfgs 0).N) 3
  refine Eq.trans ?_ (congrArg (fun y => shapeCast S16x256x4096 y shapeCasts_S65536x256_S16x256x4096) hw)
  rfl

/-- The program's result as one function of its three arguments. -/
def result (x0 : (⟨Cert.ReferenceIdeal.S16x256x4096, .f32⟩ : BufTy).Contents (Elt Ideal)) (x1 : (⟨Cert.ReferenceIdeal.S256x256x7, .f32⟩ : BufTy).Contents (Elt Ideal))
    (x2 : (⟨S256, .f32⟩ : BufTy).Contents (Elt Ideal)) : (⟨S16x256x4096, .f32⟩ : BufTy).Contents (Elt Ideal) :=
  shapeCast S16x256x4096 (G (Cert.ReferenceIdeal.Read.val_main_v17 (F := Ideal) x0) (Cert.ReferenceIdeal.Read.val_main_v19 (F := Ideal) x1) x2) shapeCasts_S65536x256_S16x256x4096

/-- The tail's result is `result` of the launch contents of the arguments. -/
theorem tail_result (c : Dev nD) :
    Pipeline.afterTail₀ cfgs (dats m) 0 (V0 m) [hostOps1] c main_v23
      = result (m ((c : Thread nD τ).loc main_arg0)) (m ((c : Thread nD τ).loc main_arg1)) (m ((c : Thread nD τ).loc main_arg2)) := by
  rw [tail_eq, final, patches_eq, weights_eq, biasRow_eq]
  rfl

/-- THE RUN: every weakly fair execution terminates with the result at `result` of the arguments and the arguments
    unchanged. -/
theorem run : θ_run defs (onTc (τ := τ) (main (F := Ideal))) ⟨m, fun _ => 0, ρ⟩ fun r => ∀ c : Dev nD,
      r.2.mem ((c.tc : Thread nD τ).loc main_v23) = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v23 (Pipeline.mem_restRefs_of main_v23 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.RunValue

end
-- ==== Proof.RefValue.lean ====
/-
  The reference, read at an index. Before its last reshape the reference holds the product of its patch matrix (the
  padded input gathered and laid out as 65536 rows of 1792) with its weight matrix (the kernel tensor transposed and laid
  out as 1792 rows of 256), plus the bias broadcast over the rows: at row `r`, column `n`,

      (sum over k < 1792 of patches[r, k] * weights[k, n]) + bias[n],

  which is `G` of those three arrays. The patch matrix and the weight matrix are carried as whole arrays and never opened.
-/
import proofs.«120205_j82085414961669_1_alg».proof.Proof.Gen.ReferenceIdeal.Read
import proofs.«120205_j82085414961669_1_alg».proof.Proof.GemmBias

noncomputable section

namespace Cert.ReferenceIdeal.RefValue

open Idealize.ShloMosaic Idealize.ShloMosaic.ValueIdx Cert.ReferenceIdeal Cert.ReferenceIdeal.Read Cert.GemmBias

/-- The reference's sum stage is `G` of its patch matrix, its weight matrix and the bias. -/
theorem sum_stage (x0 : (⟨S16x256x4096, .f32⟩ : BufTy).Contents (Elt Ideal)) (x1 : (⟨S256x256x7, .f32⟩ : BufTy).Contents (Elt Ideal))
    (x2 : (⟨S256, .f32⟩ : BufTy).Contents (Elt Ideal)) :
    val_main_v23 (F := Ideal) x0 x1 x2 = G (val_main_v17 (F := Ideal) x0) (val_main_v19 (F := Ideal) x1) x2 := by
  funext i
  obtain ⟨r, n, rfl⟩ : ∃ (r : Fin 65536) (n : Fin 256), i = ix2 r n := ⟨i 0, i 1, eq_ix2 i⟩
  have el : ∀ k : Fin 1792, lidx_main_v20 (ix2 r n) k = ix2 r k := fun k => funext fun a => Fin.ext (by
    match a with
    | ⟨0, _⟩ => rfl
    | ⟨1, _⟩ => rfl)
  have er : ∀ k : Fin 1792, ridx_main_v20 (ix2 r n) k = ix2 k n := fun k => funext fun a => Fin.ext (by
    match a with
    | ⟨0, _⟩ => rfl
    | ⟨1, _⟩ => rfl)
  have eb : idx_main_v21 (idx_main_v22 (ix2 r n)) = ix1 n := funext fun a => Fin.ext (by
    match a with
    | ⟨0, _⟩ => rfl)
  rw [G_apply, val_main_v23_apply, val_main_v20_apply, val_main_v22_apply, val_main_v21_apply]
  simp only [el, er, eb, Ideal.addf_def]
  rfl

end Cert.ReferenceIdeal.RefValue

end
-- ==== Proof.lean ====
/-
  A one-dimensional convolution computed as a matrix product, against the same computation in plain array operations.

  Both programs pad the input f32[16, 256, 4096] by three zeros on each side of its last axis, gather the 4096 windows of
  seven consecutive entries, and read the result, in row-major order, as a matrix of 65536 rows of 1792 entries (the
  patch matrix); both transpose the kernel tensor f32[256, 256, 7] to [256, 7, 256] and read it as 1792 rows of 256
  (the weight matrix). Both then form, at row r and column n,

      (sum over k < 1792 of patches[r, k] * weights[k, n]) + bias[n],

  and reshape the 65536 x 256 result to [16, 256, 4096]. The kernel narrows both matrices to bf16 first (the identity on
  the extended reals), splits the rows into 32 blocks of 2048, and per block multiplies into a zero accumulator and adds
  the bias row; the reference takes the product of the whole matrices and adds the broadcast bias. The two sums are the
  same sum over the same index, so no law beyond 0 + s = s is used and the inputs' finiteness is never needed.

  The three frames are the generated ones (the reference's is its generated run with the result dropped); the
  idealization rewrote nothing, so that conjunct is trivial; the equivalence puts the kernel's run (the region's output
  array as one function of the arrays it found, the operations around the region carried as whole arrays) beside the
  reference's run read one operation at a time.
-/
import proofs.«120205_j82085414961669_1_alg».proof.Defs
import proofs.«120205_j82085414961669_1_alg».proof.Proof.Gen.Kernel
import proofs.«120205_j82085414961669_1_alg».proof.Proof.Gen.Kernel.Skeleton
import proofs.«120205_j82085414961669_1_alg».proof.Proof.Gen.Kernel.Launch
import proofs.«120205_j82085414961669_1_alg».proof.Proof.Gen.Kernel.Points
import proofs.«120205_j82085414961669_1_alg».proof.Proof.Gen.Kernel.Frame
import proofs.«120205_j82085414961669_1_alg».proof.Proof.Gen.KernelIdeal
import proofs.«120205_j82085414961669_1_alg».proof.Proof.Gen.KernelIdeal.Skeleton
import proofs.«120205_j82085414961669_1_alg».proof.Proof.Gen.KernelIdeal.Launch
import proofs.«120205_j82085414961669_1_alg».proof.Proof.Gen.KernelIdeal.Points
import proofs.«120205_j82085414961669_1_alg».proof.Proof.Gen.KernelIdeal.Frame
import proofs.«120205_j82085414961669_1_alg».proof.Proof.Gen.ReferenceIdeal
import proofs.«120205_j82085414961669_1_alg».proof.Proof.Gen.ReferenceIdeal.Run
import proofs.«120205_j82085414961669_1_alg».proof.Proof.Gen.ReferenceIdeal.Read
import proofs.«120205_j82085414961669_1_alg».proof.Proof.Gen.Pre_finite_inputs
import proofs.«120205_j82085414961669_1_alg».proof.Proof.KernelRun
import proofs.«120205_j82085414961669_1_alg».proof.Proof.RefValue
import Idealize.ShloMosaic.Adequacy
import Idealize.ShloMosaic.Init

noncomputable section

namespace Cert.Proof

open Idealize.ShloMosaic Idealize.SL.Sem

/-- The reference's result is the kernel's function of the same arguments: its last stage is the reshape of its sum
    stage, and the sum stage is `G` of its patch matrix, its weight matrix and the bias. -/
theorem reference_result (x0 : (⟨Cert.ReferenceIdeal.S16x256x4096, .f32⟩ : BufTy).Contents (Elt Ideal))
    (x1 : (⟨Cert.ReferenceIdeal.S256x256x7, .f32⟩ : BufTy).Contents (Elt Ideal)) (x2 : (⟨Cert.ReferenceIdeal.S256, .f32⟩ : BufTy).Contents (Elt Ideal)) :
    Cert.ReferenceIdeal.Read.val_main_v24 (F := Ideal) x0 x1 x2 = Cert.KernelIdeal.RunValue.result x0 x1 x2 := by
  unfold Cert.ReferenceIdeal.Read.val_main_v24 Cert.KernelIdeal.RunValue.result
  rw [Cert.ReferenceIdeal.RefValue.sum_stage]

/-- Both idealized programs, from memories that agree on the three arguments, end with the same result. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v24_eq]
  exact reference_result _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
